-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x1024 : Shape := ⟨3, ![8, 128, 1024]⟩
abbrev S1024 : Shape := ⟨1, ![1024]⟩
abbrev S_ : Shape := ⟨0, ![]⟩

class Facts : Prop where
  bcast_S_S8x128x1024 : S_.BroadcastsInDim S8x128x1024 (![] : Fin 0 → Fin S8x128x1024.rank)
  reducesTo_S8x128x1024_S_d0_1_2 : S8x128x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x128x1024 .f32) (main_arg1 : FVec F S1024 .f32) : IVec S_ 1 :=
  let main_v0 : FVec F S8x128x1024 .f32 := Host.absf main_arg0
  let main_cst : FVec F S_ .f32 := constant S_ .f32 0x7F800000#32
  let main_v1 : FVec F S8x128x1024 .f32 := broadcastInDim S8x128x1024 ![] bcast_S_S8x128x1024 main_cst
  let main_v2 : IVec S8x128x1024 1 := cmpf .olt main_v0 main_v1
  let main_c : IVec S_ 1 := constantI S_ 1 1#1
  let main_v3 : IVec S_ 1 := (fun x v => Host.reduce IntOp.andi x v reducesTo_S8x128x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S8x128x1024 : Shape := ⟨3, ![8, 128, 1024]⟩
abbrev S1024 : Shape := ⟨1, ![1024]⟩
abbrev S8x128x20x1024 : Shape := ⟨4, ![8, 128, 20, 1024]⟩
abbrev S1x32x1024 : Shape := ⟨3, ![1, 32, 1024]⟩
abbrev S1x32x20x1024 : Shape := ⟨4, ![1, 32, 20, 1024]⟩
abbrev S32x1024 : Shape := ⟨2, ![32, 1024]⟩
abbrev S1x1024 : Shape := ⟨2, ![1, 1024]⟩
abbrev S32x20x1024 : Shape := ⟨3, ![32, 20, 1024]⟩
abbrev S32x1x1024 : Shape := ⟨3, ![32, 1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x128x1024, .f32⟩
  | .hbm, ⟨1, _⟩ => ⟨S1024, .f32⟩
  | .hbm, ⟨2, _⟩ => ⟨S8x128x20x1024, .f32⟩
  | .local _ .vmem, ⟨0, _⟩ => ⟨S1x32x1024, .f32⟩
  | .local _ .vmem, ⟨1, _⟩ => ⟨S1x32x1024, .f32⟩
  | .local _ .vmem, ⟨2, _⟩ => ⟨S1024, .f32⟩
  | .local _ .vmem, ⟨3, _⟩ => ⟨S1x32x20x1024, .f32⟩
  | .local _ .vmem, ⟨4, _⟩ => ⟨S1x32x20x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x20x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S32x1024 : S1x1024.Broadcasts S32x1024
  iota_S32x20x1024_d1_w32 : S32x20x1024.Iotas .tc 32 [1]
  shapeCasts_S32x1024_S32x1x1024 : S32x1024.ShapeCasts S32x1x1024
  broadcasts_S32x1x1024_S32x20x1024 : S32x1x1024.Broadcasts S32x20x1024
  natLt_1_32 : 1 < 32
  inb_S1x32x20x1024_S1x32x20x1024_0_0_0_0 : ∀ a, (![0, 0, 0, 0] : Fin 4 → Nat) a + S1x32x20x1024.size a ≤ S1x32x20x1024.size a
  h_S1x32x20x1024 : 0 < S1x32x20x1024.numel
  shapeCasts_S1x32x20x1024_S32x20x1024 : S1x32x20x1024.ShapeCasts S32x20x1024
  shapeCasts_S32x20x1024_S1x32x20x1024 : S32x20x1024.ShapeCasts S1x32x20x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S8x128x1024.size a
  hwx0_0 : ∀ i : grid0.Coords, EltTy.bits .f32 = 32 ∨ (Rect.block (s := S8x128x1024) S1x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x20x1024.size a ≤ S8x128x20x1024.size a
  hwx0_2 : ∀ i : grid0.Coords, EltTy.bits .f32 = 32 ∨ (Rect.block (s := S8x128x20x1024) S1x32x20x1024.size (cc0_transform_2 i) (hinb0_2 i)).WholeWords (EltTy.packing .f32)

variable [Facts₀]

abbrev win0_0 : Pipeline.Window sig grid0 :=
  Pipeline.Window.ofSpec (Memref.whole main_arg0) S1x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x20x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x1024 : Shape := ⟨3, ![8, 128, 1024]⟩
abbrev S1024 : Shape := ⟨1, ![1024]⟩
abbrev S_ : Shape := ⟨0, ![]⟩
abbrev S1x1x1024 : Shape := ⟨3, ![1, 1, 1024]⟩
abbrev S20 : Shape := ⟨1, ![20]⟩
abbrev S8x128x1x1024 : Shape := ⟨4, ![8, 128, 1, 1024]⟩
abbrev S1x1x20x1 : Shape := ⟨4, ![1, 1, 20, 1]⟩
abbrev S8x128x20x1024 : Shape := ⟨4, ![8, 128, 20, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8x128x1024, .f32⟩
  | .hbm, ⟨6, _⟩ => ⟨S8x128x1024, .f32⟩
  | .hbm, ⟨7, _⟩ => ⟨S_, .f32⟩
  | .hbm, ⟨8, _⟩ => ⟨S8x128x1024, .f32⟩
  | .hbm, ⟨9, _⟩ => ⟨S8x128x1024, .f32⟩
  | .hbm, ⟨10, _⟩ => ⟨S_, .f32⟩
  | .hbm, ⟨11, _⟩ => ⟨S8x128x1024, .f32⟩
  | .hbm, ⟨12, _⟩ => ⟨S8x128x1024, .f32⟩
  | .hbm, ⟨13, _⟩ => ⟨S_, .f32⟩
  | .hbm, ⟨14, _⟩ => ⟨S8x128x1024, .f32⟩
  | .hbm, ⟨15, _⟩ => ⟨S8x128x1024, .f32⟩
  | .hbm, ⟨16, _⟩ => ⟨S1x1x1024, .f32⟩
  | .hbm, ⟨17, _⟩ => ⟨S8x128x1024, .f32⟩
  | .hbm, ⟨18, _⟩ => ⟨S8x128x1024, .f32⟩
  | .hbm, ⟨19, _⟩ => ⟨S8x128x1024, .i32⟩
  | .hbm, ⟨20, _⟩ => ⟨S20, .i32⟩
  | .hbm, ⟨21, _⟩ => ⟨S8x128x1x1024, .i32⟩
  | .hbm, ⟨22, _⟩ => ⟨S1x1x20x1, .i32⟩
  | .hbm, ⟨23, _⟩ => ⟨S8x128x20x1024, .i32⟩
  | .hbm, ⟨24, _⟩ => ⟨S8x128x20x1024, .i32⟩
  | .hbm, ⟨25, _⟩ => ⟨S8x128x20x1024, .i1⟩
  | .hbm, ⟨26, _⟩ => ⟨S8x128x20x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S8x128x1024 : S_.BroadcastsInDim S8x128x1024 (![] : Fin 0 → Fin S8x128x1024.rank)
  bcast_S1024_S1x1x1024_2 : S1024.BroadcastsInDim S1x1x1024 (![2] : Fin 1 → Fin S1x1x1024.rank)
  bcast_S1x1x1024_S8x128x1024_0_1_2 : S1x1x1024.BroadcastsInDim S8x128x1024 (![0, 1, 2] : Fin 3 → Fin S8x128x1024.rank)
  bcast_S8x128x1024_S8x128x1x1024_0_1_3 : S8x128x1024.BroadcastsInDim S8x128x1x1024 (![0, 1, 3] : Fin 3 → Fin S8x128x1x1024.rank)
  bcast_S20_S1x1x20x1_2 : S20.BroadcastsInDim S1x1x20x1 (![2] : Fin 1 → Fin S1x1x20x1.rank)
  bcast_S8x128x1x1024_S8x128x20x1024_0_1_2_3 : S8x128x1x1024.BroadcastsInDim S8x128x20x1024 (![0, 1, 2, 3] : Fin 4 → Fin S8x128x20x1024.rank)
  bcast_S1x1x20x1_S8x128x20x1024_0_1_2_3 : S1x1x20x1.BroadcastsInDim S8x128x20x1024 (![0, 1, 2, 3] : Fin 4 → Fin S8x128x20x1024.rank)

variable [Facts₀]

class Facts : Prop extends Facts₀ where

variable [Facts]
-- ==== Proof.SpikeCode.lean ====
/-
  Latency (temporal) coding as one function on the extended reals.

  A neuron with feature value x and latency scale s fires exactly once, at the time step
      latency x s = trunc( ((1 - min(1, max(0, x))) * 20) * s )        (a 32-bit integer),
  and the spike train over the 20 time steps is the one-hot code of that step:
      spikeAt x s t = 1 if latency x s = t, else 0.
  The whole result is spikes f ls (b, q, t, n) = spikeAt (f (b, q, n)) (ls n) t over
  f : [8, 128, 1024] and ls : [1024].

  Both programs compute exactly this, operation for operation, so no law of the extended reals is needed and
  the inputs' finiteness is never used. The one place where their texts differ is the last conversion of the
  one-bit comparison to a float: widened to 32 bits and read as a signed integer, or read directly as an unsigned
  one-bit integer. A bit is 0 or 1 under both readings (bit_widened_signed_eq_unsigned).

  Also here: two re-indexings read at an index given by coordinates, a middle unit axis added by a shape cast
  ([a, b] to [a, 1, b]) and that unit axis broadcast ([a, 1, b] to [a, c, b]).
-/
import Idealize.ShloMosaic.PureOps.Ideal
import Idealize.ShloMosaic.Lib.ValueIdx
import Idealize.ShloMosaic.Lib.ValueLayout

noncomputable section

namespace Cert.SpikeCode

open Idealize.ShloMosaic Idealize.ShloMosaic.ValueIdx

/-! ## The function -/

/-- The time step at which a neuron with feature x and latency scale s fires:
    ((1 - min(1, max(0, x))) * 20) * s, truncated to a 32-bit integer. The three float words are 1, 0 and 20. -/
def latency (x s : Ideal .f32) : BitVec 32 :=
  FloatOps.fptosi (F := Ideal) 32
    (FloatOps.mulf
      (FloatOps.mulf
        (FloatOps.subf (FloatOps.ofBits .f32 0x3F800000#32)
          (FloatOps.minimumf (FloatOps.ofBits .f32 0x3F800000#32)
            (FloatOps.maximumf (FloatOps.ofBits .f32 0x00000000#32) x)))
        (FloatOps.ofBits .f32 0x41A00000#32))
      s)

/-- The spike of that neuron at time step t: one if it fires then, zero otherwise (the comparison bit read as an
    unsigned integer). -/
def spikeAt (x s : Ideal .f32) (t : Nat) : Ideal .f32 :=
  FloatOps.uitofp (F := Ideal) .f32 (IntOp.cmpi .eq (latency x s) (BitVec.ofNat 32 t))

/-- The whole spike tensor: entry (b, q, t, n) is the spike at step t of the neuron with feature f (b, q, n) and
    scale ls n. -/
def spikes (f : (⟨3, ![8, 128, 1024]⟩ : Shape).Idx → Ideal .f32) (ls : (⟨1, ![1024]⟩ : Shape).Idx → Ideal .f32) :
    (⟨4, ![8, 128, 20, 1024]⟩ : Shape).Idx → Ideal .f32 :=
  fun i => spikeAt (f (ix3 (i 0) (i 1) (i 3))) (ls (ix1 (i 3))) (i 2).val

/-- The spike tensor at an index given by its four coordinates. -/
theorem spikes_ix4 (f : (⟨3, ![8, 128, 1024]⟩ : Shape).Idx → Ideal .f32) (ls : (⟨1, ![1024]⟩ : Shape).Idx → Ideal .f32)
    (b : Fin 8) (q : Fin 128) (t : Fin 20) (n : Fin 1024) :
    spikes f ls (ix4 b q t n) = spikeAt (f (ix3 b q n)) (ls (ix1 n)) t.val := rfl

/-! ## A comparison bit as a float, two ways -/

/-- A single bit widened with zeros to 32 bits and read as a SIGNED integer is the bit read as an UNSIGNED integer:
    both are 0 or 1. So converting either to a float gives the same extended real. -/
theorem bit_widened_signed_eq_unsigned (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by
    by_cases hb : b = 1#1
    · subst hb; decide
    · rw [eq_zero_of_ne_one hb]; decide
  rw [h, Int.cast_natCast]

/-! ## Two layout operations read at an index -/

variable {α : Type}

/-- An [a, b] array cast to [a, 1, b] reads, at (i, u, j), the operand at (i, j), whatever the unit coordinate u:
    the row-major positions agree. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array broadcast to [a, c, b] reads, at (i, k, j), the operand at (i, 0, j): the middle coordinate is
    dropped, the outer two are kept. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

end Cert.SpikeCode

end
-- ==== Proof.KernelBlock.lean ====
/-
  What the kernel body stores, at an index.

  At one grid point the body holds a [1, 32, 1024] block of features and the whole [1024] scale vector, and stores a
  [1, 32, 20, 1024] block. Entry (0, r, t, n) of what it stores is the spike at step t of the neuron with feature
  block entry (0, r, n) and scale n: the leading unit axis of the feature block is dropped, the scale vector is laid
  along the rows, the [32, 1024] latencies get a middle unit axis that is broadcast over the 20 time steps and
  compared with the step number (the iota along that axis), and the comparison bit, widened to 32 bits and read as a
  signed integer, becomes a float, which is the bit read unsigned.
-/
import proofs.«112414_j36000415875202_1_alg».proof.Proof.Gen.KernelIdeal.Skeleton
import proofs.«112414_j36000415875202_1_alg».proof.Proof.SpikeCode
import Idealize.ShloMosaic.Lib.Pipeline.Value

noncomputable section

namespace Cert.KernelIdeal.Block

open Cert.KernelIdeal Cert.KernelIdeal.Gen
open Idealize.ShloMosaic Idealize.ShloMosaic.ValueIdx Cert.SpikeCode

/-- The block of latencies the body computes from a feature block and the scale vector, at row r and neuron n. -/
theorem latency_block (x0 : FVec Ideal S1x32x1024 .f32) (x1 : FVec Ideal S1024 .f32) (r : Fin 32) (n : Fin 1024) :
    (fptosi 32
      (mulf
        (mulf
          (subf (broadcast S32x1024 (Scalar.ofBits (F := Ideal) .f32 0x3F800000#32))
            (minimumf (broadcast S32x1024 (Scalar.ofBits (F := Ideal) .f32 0x3F800000#32))
              (maximumf (broadcast S32x1024 (Scalar.ofBits (F := Ideal) .f32 0x00000000#32))
                (shapeCast S32x1024 x0 shapeCasts_S1x32x1024_S32x1024))))
          (broadcast S32x1024 (Scalar.ofBits (F := Ideal) .f32 0x41A00000#32)))
        (broadcastTo S32x1024 (shapeCast S1x1024 x1 shapeCasts_S1024_S1x1024) broadcasts_S1x1024_S32x1024))
      : IVec S32x1024 32) (ix2 r n)
    = latency (x0 (ix3 (0 : Fin 1) r n)) (x1 (ix1 n)) := by
  show FloatOps.fptosi (F := Ideal) 32
      (FloatOps.mulf
        (FloatOps.mulf
          (FloatOps.subf (FloatOps.ofBits .f32 0x3F800000#32)
            (FloatOps.minimumf (FloatOps.ofBits .f32 0x3F800000#32)
              (FloatOps.maximumf (FloatOps.ofBits .f32 0x00000000#32)
                (shapeCast S32x1024 x0 shapeCasts_S1x32x1024_S32x1024 (ix2 r n)))))
          (FloatOps.ofBits .f32 0x41A00000#32))
        (broadcastTo S32x1024 (shapeCast S1x1024 x1 shapeCasts_S1024_S1x1024) broadcasts_S1x1024_S32x1024 (ix2 r n)))
    = _
  rw [shapeCast_1ab_ab_apply, broadcastTo_1b_ab_apply, shapeCast_a_1a_apply]
  rfl

/-- Entry (u, r, t, n) of the block the body stores is the spike at step t of the neuron with feature block entry
    (0, r, n) and scale n. -/
theorem payload_apply (x0 : FVec Ideal S1x32x1024 .f32) (x1 : FVec Ideal S1024 .f32)
    (u : Fin 1) (r : Fin 32) (t : Fin 20) (n : Fin 1024) :
    k0_pay1 (F := Ideal) x0 x1 (ix4 u r t n) = spikeAt (x0 (ix3 (0 : Fin 1) r n)) (x1 (ix1 n)) t.val := by
  unfold k0_pay1
  -- the outer shape cast only adds the leading unit axis
  refine (shapeCast_abc_1abc_apply _ shapeCasts_S32x20x1024_S1x32x20x1024 u r t n).trans ?_
  -- the conversion of the widened comparison bit is the bit read unsigned
  refine (bit_widened_signed_eq_unsigned _).trans ?_
  unfold spikeAt
  refine congrArg (FloatOps.uitofp (F := Ideal) .f32) ?_
  -- the two compared words: the broadcast latency, and the step number
  refine congr (congrArg (IntOp.cmpi .eq) ?_) ?_
  · refine (broadcastTo_a1b_acb_apply _ broadcasts_S32x1x1024_S32x20x1024 r t n).trans ?_
    refine (shapeCast_ab_a1b_apply _ shapeCasts_S32x1024_S32x1x1024 r (0 : Fin 1) n).trans ?_
    exact latency_block x0 x1 r n
  · exact iota_single_apply .tc S32x20x1024 32 (1 : Fin 3) iota_S32x20x1024_d1_w32 (ix3 r t n)

/-- The same, for use at a grid point: an entry y of the stored block equals the spike tensor of arrays f and ls at an
    array index i, once the feature the block holds at y's row and neuron is f at i's batch, position and neuron,
    the scale at y's neuron is ls at i's neuron, and the two time steps agree. -/
theorem block_entry (x0 : FVec Ideal S1x32x1024 .f32) (x1 : FVec Ideal S1024 .f32)
    (f : S8x128x1024.Idx → Ideal .f32) (ls : S1024.Idx → Ideal .f32)
    (y : S1x32x20x1024.Idx) (i : S8x128x20x1024.Idx)
    (h0 : x0 (ix3 (0 : Fin 1) (y 1) (y 3)) = f (ix3 (i 0) (i 1) (i 3)))
    (h1 : x1 (ix1 (y 3)) = ls (ix1 (i 3)))
    (h2 : (y 2).val = (i 2).val) :
    k0_pay1 (F := Ideal) x0 x1 y = spikes f ls i := by
  refine (congrArg (k0_pay1 (F := Ideal) x0 x1) (eq_ix4 y)).trans ?_
  refine ((payload_apply x0 x1 (y 0) (y 1) (y 2) (y 3)).trans ?_).trans (congrArg (spikes f ls) (eq_ix4 i)).symm
  refine Eq.trans ?_ (spikes_ix4 f ls (i 0) (i 1) (i 2) (i 3)).symm
  exact congr (congr (congrArg spikeAt h0) h1) h2

end Cert.KernelIdeal.Block

end
-- ==== Proof.KernelArray.lean ====
/-
  From the kernel's blocks to its whole result array.

  The grid has 8 x 4 points; point (b, s) stages rows 32 s .. 32 s + 31 of batch b of the features, the whole scale
  vector, and writes back the [1, 32, 20, 1024] block of the result at batch b, positions 32 s .. 32 s + 31, all 20
  time steps, all 1024 neurons. An entry of that block sits at the array index with the same time step and neuron and
  with position 32 s + its row, and the feature block's entry at that row and neuron is the feature array's at the
  same batch, position and neuron. So what each point writes back is its block of the spike tensor of the two
  argument arrays; the 32 blocks tile the result array (position q lies in block q / 32), so the array ends as the
  spike tensor.
-/
import proofs.«112414_j36000415875202_1_alg».proof.Proof.Gen.KernelIdeal.Value
import proofs.«112414_j36000415875202_1_alg».proof.Proof.KernelBlock

noncomputable section

namespace Cert.KernelIdeal.Whole

open Cert.KernelIdeal Cert.KernelIdeal.Gen Cert.KernelIdeal.Block
open Idealize.ShloMosaic Idealize.ShloMosaic.TcCoe Idealize.ShloMosaic.ValueIdx Idealize.SL.Sem Cert.SpikeCode
open Idealize.ShloMosaic.Pipeline (Dat)

variable (m : (ℓ : Loc nD τ sig) → Buf (Elt Ideal) ℓ) (ρ : Dev nD → PrngReg)

theorem zero_offsets4 : (![0, 0, 0, 0] : Fin 4 → Nat) = fun _ => 0 := funext fun a => by fin_cases a <;> rfl
theorem zero_offsets3 : (![0, 0, 0] : Fin 3 → Nat) = fun _ => 0 := funext fun a => by fin_cases a <;> rfl
theorem zero_offsets1 : (![0] : Fin 1 → Nat) = fun _ => 0 := funext fun a => by fin_cases a <;> rfl

/-- The three index maps over the 32 grid points: the feature window moves with the result window along batch and
    position and stays at 0 along the neurons; the scale window stays at 0; the result window stays at 0 along the
    time steps and the neurons. -/
theorem block_indices : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 1) = 0
    ∧ win0_2.index t (2 : Fin 4) = 0
    ∧ win0_2.index t (3 : Fin 4) = 0 :=
  (by decide +kernel : ∀ t : Fin grid0.N, _)

/-- Every (batch, group of 32 positions) is some grid point's block of the result. -/
theorem block_onto : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- What grid point t writes back is its block of the spike tensor of the argument arrays. -/
theorem flushed_eq (c : Dev nD) (t : Fin cfg0.N) :
    (dats m 0 c).flushed 2 t
      = ((cfg0.win 2).blk t).view.read (Elt Ideal) (spikes (V m c main_arg0) (V m c main_arg1)) := by
  rw [Cert.KernelIdeal.Value.flushed2]
  unfold out0_2
  rw [View.canon_unit_zero zero_offsets4]
  simp only [View.ld_unit_zero (S := S1x32x1024) zero_offsets3, View.ld_unit_zero (S := S1024) zero_offsets1]
  obtain ⟨e0, e1, e2, e3, e4, e5⟩ := block_indices t
  funext j
  show k0_pay1 (F := Ideal) (iblk m c 0 t) (iblk m c 1 t) j
    = spikes (V m c main_arg0) (V m c main_arg1) (((cfg0.win 2).blk t).view.emb j)
  have hj0 : (j 0).val < 1 := (j 0).isLt
  refine block_entry _ _ _ _ j _ ?_ ?_ ?_
  · -- the feature block's entry is the feature array's at the same batch, position and neuron
    show V m c main_arg0 (((cfg0.win 0).blk t).view.emb (ix3 (0 : Fin 1) (j 1) (j 3)))
      = V m c main_arg0 (ix3 ((((cfg0.win 2).blk t).view.emb j) 0) ((((cfg0.win 2).blk t).view.emb j) 1)
          ((((cfg0.win 2).blk t).view.emb j) 3))
    refine congrArg (V m c main_arg0) (funext fun a => Fin.ext ?_)
    match a with
    | ⟨0, _⟩ =>
      show win0_0.index t (0 : Fin 3) * 1 + 1 * 0 = win0_2.index t (0 : Fin 4) * 1 + 1 * (j 0).val
      omega
    | ⟨1, _⟩ =>
      show win0_0.index t (1 : Fin 3) * 32 + 1 * (j 1).val = win0_2.index t (1 : Fin 4) * 32 + 1 * (j 1).val
      omega
    | ⟨2, _⟩ =>
      show win0_0.index t (2 : Fin 3) * 1024 + 1 * (j 3).val = win0_2.index t (3 : Fin 4) * 1024 + 1 * (j 3).val
      omega
  · -- the scale block is the whole scale vector
    show V m c main_arg1 (((cfg0.win 1).blk t).view.emb (ix1 (j 3)))
      = V m c main_arg1 (ix1 ((((cfg0.win 2).blk t).view.emb j) 3))
    refine congrArg (V m c main_arg1) (funext fun a => Fin.ext ?_)
    match a with
    | ⟨0, _⟩ =>
      show win0_1.index t (0 : Fin 1) * 1024 + 1 * (j 3).val = win0_2.index t (3 : Fin 4) * 1024 + 1 * (j 3).val
      omega
  · -- the block holds all 20 time steps
    show (j 2).val = win0_2.index t (2 : Fin 4) * 20 + 1 * (j 2).val
    omega

/-- An index of the result array is in grid point t's block iff each coordinate is in the block's range on its axis. -/
theorem mem_block (t : Fin cfg0.N) (i : S8x128x20x1024.Idx) :
    i ∈ ((cfg0.win 2).blk t).view.set ↔ ∀ a : Fin 4, win0_2.index t a * S1x32x20x1024.size a ≤ (i a).val
      ∧ (i a).val < win0_2.index t a * S1x32x20x1024.size a + S1x32x20x1024.size a := by
  show i ∈ ((View.whole main_v0).slice (win0_2.rect t)).set ↔ _
  rw [View.set_slice_whole, Rect.mem_set_unit]
  exact Iff.rfl

/-- The blocks tile the result: index (b, q, t, n) lies in the block of batch b and position group q / 32. -/
theorem blocks_cover (i : S8x128x20x1024.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 20 := (i 2).isLt
  have hi3 : (i 3).val < 1024 := (i 3).isLt
  obtain ⟨t, ht⟩ := block_onto ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 32 ≤ (i 1).val ∧ (i 1).val < win0_2.index t (1 : Fin 4) * 32 + 32
    omega
  | ⟨2, _⟩ =>
    show win0_2.index t (2 : Fin 4) * 20 ≤ (i 2).val ∧ (i 2).val < win0_2.index t (2 : Fin 4) * 20 + 20
    omega
  | ⟨3, _⟩ =>
    show win0_2.index t (3 : Fin 4) * 1024 ≤ (i 3).val ∧ (i 3).val < win0_2.index t (3 : Fin 4) * 1024 + 1024
    omega

/-- The result array after the run is the spike tensor of the argument arrays as launched. -/
theorem final (c : Dev nD) :
    (dats m 0 c).arrAt 2 cfg0.N
      = spikes (m ((c : Thread nD τ).loc main_arg0)) (m ((c : Thread nD τ).loc main_arg1)) :=
  (dats m 0 c).arrAt_eq_of_cover 2 (spikes (V m c main_arg0) (V m c main_arg1))
    (fun t _ => flushed_eq m c t) blocks_cover

/-- The kernel's run: it terminates with the result array at the spike tensor of the arguments, the arguments
    unchanged. -/
theorem run : θ_run defs (onTc (τ := τ) (main (F := Ideal))) ⟨m, fun _ => 0, ρ⟩ fun r => ∀ c : Dev nD,
      r.2.mem ((c : Thread nD τ).loc main_v0)
        = spikes (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.ReferenceArray.lean ====
/-
  The reference's result is the spike tensor.

  The host program clips the features to [0, 1], forms ((1 - clip) * 20) * scale with the scale broadcast along the
  last axis, truncates to 32-bit integers, inserts the time axis by two broadcasts, compares with the time steps
  0..19 laid along that axis, and converts the comparison bit to a float. Read at an entry (b, q, t, n) every
  broadcast just drops coordinates: the features are read at (b, q, n), the scale at n, the time step is t. What is
  left is the specification's spikeAt, term for term.
-/
import proofs.«112414_j36000415875202_1_alg».proof.Proof.Gen.ReferenceIdeal.Read
import proofs.«112414_j36000415875202_1_alg».proof.Proof.SpikeCode

noncomputable section

namespace Cert.ReferenceIdeal.RefValue

open Cert.ReferenceIdeal Cert.ReferenceIdeal.Gen Cert.ReferenceIdeal.Read
open Idealize.ShloMosaic Idealize.ShloMosaic.ValueIdx Cert.SpikeCode

/-- Through the two broadcasts that insert the time axis, entry (b, q, t, n) reads the latency array at (b, q, n). -/
theorem idx_feature (b : Fin 8) (q : Fin 128) (t : Fin 20) (n : Fin 1024) :
    idx_main_v10 (idx_main_v12 (ix4 b q t n)) = ix3 b q n :=
  funext fun a => Fin.ext (by match a with | ⟨0, _⟩ => rfl | ⟨1, _⟩ => rfl | ⟨2, _⟩ => rfl)

/-- Through the two broadcasts of the scale vector, entry (b, q, n) reads it at n. -/
theorem idx_scale (b : Fin 8) (q : Fin 128) (n : Fin 1024) :
    idx_main_v5 (idx_main_v6 (ix3 b q n)) = ix1 n :=
  funext fun a => Fin.ext (by match a with | ⟨0, _⟩ => rfl)

/-- Through the two broadcasts of the time steps, entry (b, q, t, n) reads step t. -/
theorem idx_step (b : Fin 8) (q : Fin 128) (t : Fin 20) (n : Fin 1024) :
    idx_main_v11 (idx_main_v13 (ix4 b q t n)) = ix1 t :=
  funext fun a => Fin.ext (by match a with | ⟨0, _⟩ => rfl)

/-- The reference's last stage, as a function of the two argument arrays, is the spike tensor. -/
theorem reference_eq_spikes (x0 : (⟨S8x128x1024, .f32⟩ : BufTy).Contents (Elt Ideal))
    (x1 : (⟨S1024, .f32⟩ : BufTy).Contents (Elt Ideal)) :
    val_main_v15 (F := Ideal) x0 x1 = spikes x0 x1 := by
  funext i
  obtain ⟨b, q, t, n, rfl⟩ : ∃ (b : Fin 8) (q : Fin 128) (t : Fin 20) (n : Fin 1024), i = ix4 b q t n :=
    ⟨i 0, i 1, i 2, i 3, eq_ix4 i⟩
  rw [spikes_ix4]
  rw [val_main_v15_apply, val_main_v14_apply, val_main_v12_apply, val_main_v10_apply, val_main_v8_apply,
    val_main_v7_apply, val_main_v6_apply, val_main_v5_apply, val_main_v4_apply, val_main_v3_apply,
    val_main_cst_2_apply, val_main_v2_apply, val_main_v1_apply, val_main_cst_1_apply, val_main_v0_apply,
    val_main_call0_v4_apply, val_main_call0_v3_apply, val_main_cst_0_apply, val_main_call0_v2_apply,
    val_main_call0_v1_apply, val_main_call0_v0_apply, val_main_cst_apply, val_main_v13_apply, val_main_v11_apply,
    val_main_v9_apply, idx_feature, idx_scale, idx_step]
  rfl

end Cert.ReferenceIdeal.RefValue

end
-- ==== Proof.lean ====
/-
  The latency-coding kernel against its jnp reference, over the extended reals.

  Both programs turn features f : [8, 128, 1024] and latency scales ls : [1024] into a spike tensor [8, 128, 20, 1024]:
  neuron (b, q, n) fires once, at time step trunc(((1 - min(1, max(0, f (b, q, n)))) * 20) * ls n), and entry
  (b, q, t, n) is 1 if that step is t and 0 otherwise (Proof/SpikeCode.lean). The kernel does it block by block over
  an 8 x 4 grid, 32 positions of one batch at a time (Proof/KernelBlock.lean for one block, Proof/KernelArray.lean for
  the whole array); the reference in one pass over the whole arrays (Proof/ReferenceArray.lean). The two perform the
  same operations on each entry, so the results agree entry by entry with no algebra on the extended reals, and the
  precondition (finite inputs) is not used.

  The three frames are the generated ones (the reference's is its run with the result dropped); the kernel's
  idealization rewrote nothing, so there is nothing to preserve.
-/
import proofs.«112414_j36000415875202_1_alg».proof.Defs
import proofs.«112414_j36000415875202_1_alg».proof.Proof.Gen.Kernel
import proofs.«112414_j36000415875202_1_alg».proof.Proof.Gen.Kernel.Skeleton
import proofs.«112414_j36000415875202_1_alg».proof.Proof.Gen.Kernel.Launch
import proofs.«112414_j36000415875202_1_alg».proof.Proof.Gen.Kernel.Points
import proofs.«112414_j36000415875202_1_alg».proof.Proof.Gen.Kernel.Frame
import proofs.«112414_j36000415875202_1_alg».proof.Proof.Gen.KernelIdeal
import proofs.«112414_j36000415875202_1_alg».proof.Proof.Gen.KernelIdeal.Skeleton
import proofs.«112414_j36000415875202_1_alg».proof.Proof.Gen.KernelIdeal.Launch
import proofs.«112414_j36000415875202_1_alg».proof.Proof.Gen.KernelIdeal.Points
import proofs.«112414_j36000415875202_1_alg».proof.Proof.Gen.KernelIdeal.Frame
import proofs.«112414_j36000415875202_1_alg».proof.Proof.Gen.ReferenceIdeal
import proofs.«112414_j36000415875202_1_alg».proof.Proof.Gen.Pre_finite_inputs
import proofs.«112414_j36000415875202_1_alg».proof.Proof.Gen.KernelIdeal.Value
import proofs.«112414_j36000415875202_1_alg».proof.Proof.Gen.ReferenceIdeal.Run
import proofs.«112414_j36000415875202_1_alg».proof.Proof.Gen.ReferenceIdeal.Read
import proofs.«112414_j36000415875202_1_alg».proof.Proof.KernelArray
import proofs.«112414_j36000415875202_1_alg».proof.Proof.ReferenceArray
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the features and the scales, the kernel's result array and the reference's are both the
    spike tensor of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.reference_eq_spikes,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
